-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536 : Shape := ⟨1, ![65536]⟩
abbrev S16777216 : Shape := ⟨1, ![16777216]⟩
abbrev S_ : Shape := ⟨0, ![]⟩

class Facts : Prop where
  bcast_S_S65536 : S_.BroadcastsInDim S65536 (![] : Fin 0 → Fin S65536.rank)
  reducesTo_S65536_S_d0 : S65536.ReducesTo [0] S_
  h_S_ : 0 < S_.numel
  bcast_S_S16777216 : S_.BroadcastsInDim S16777216 (![] : Fin 0 → Fin S16777216.rank)
  reducesTo_S16777216_S_d0 : S16777216.ReducesTo [0] S_

variable [Facts]

def fn {F : FTy → Type} [FloatOps F] (main_arg0 : FVec F S65536 .f32) (main_arg1 : FVec F S16777216 .f32) (main_arg2 : FVec F S65536 .f32) (main_arg3 : IVec S16777216 32) (main_arg4 : IVec S16777216 32) : IVec S_ 1 :=
  let main_v0 : FVec F S65536 .f32 := Host.absf main_arg0
  let main_cst : FVec F S_ .f32 := constant S_ .f32 0x7F800000#32
  let main_v1 : FVec F S65536 .f32 := broadcastInDim S65536 ![] bcast_S_S65536 main_cst
  let main_v2 : IVec S65536 1 := cmpf .olt main_v0 main_v1
  let main_c : IVec S_ 1 := constantI S_ 1 1#1
  let main_v3 : IVec S_ 1 := (fun x v => Host.reduce IntOp.andi x v reducesTo_S65536_S_d0 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  let main_v9 : FVec F S65536 .f32 := Host.absf main_arg2
  let main_cst_2 : FVec F S_ .f32 := constant S_ .f32 0x7F800000#32
  let main_v10 : FVec F S65536 .f32 := broadcastInDim S65536 ![] bcast_S_S65536 main_cst_2
  let main_v11 : IVec S65536 1 := cmpf .olt main_v9 main_v10
  let main_c_3 : IVec S_ 1 := constantI S_ 1 1#1
  let main_v12 : IVec S_ 1 := (fun x v => Host.reduce IntOp.andi x v reducesTo_S65536_S_d0 h_S_) main_v11 main_c_3
  let main_v13 : IVec S_ 1 := andi main_v8 main_v12
  main_v13
-- ==== Kernel.lean ====
abbrev S65536 : Shape := ⟨1, ![65536]⟩
abbrev S16777216 : Shape := ⟨1, ![16777216]⟩
abbrev S_ : Shape := ⟨0, ![]⟩
abbrev S16777216x1 : Shape := ⟨2, ![16777216, 1]⟩
abbrev S131072x128 : Shape := ⟨2, ![131072, 128]⟩
abbrev S8192x128 : Shape := ⟨2, ![8192, 128]⟩
abbrev S512x128 : Shape := ⟨2, ![512, 128]⟩

abbrev nBuf : Space → Nat
  | .hbm => 26
  | .vmem => 9
  | .smem => 0
  | _ => 0

abbrev bufTy : (tb : Table) → Fin (tcTables nBuf tb) → BufTy
  | .hbm, ⟨0, _⟩ => ⟨S65536, .f32⟩
  | .hbm, ⟨1, _⟩ => ⟨S16777216, .f32⟩
  | .hbm, ⟨2, _⟩ => ⟨S65536, .f32⟩
  | .hbm, ⟨3, _⟩ => ⟨S16777216, .i32⟩
  | .hbm, ⟨4, _⟩ => ⟨S16777216, .i32⟩
  | .hbm, ⟨5, _⟩ => ⟨S_, .i32⟩
  | .hbm, ⟨6, _⟩ => ⟨S16777216, .i32⟩
  | .hbm, ⟨7, _⟩ => ⟨S16777216, .i1⟩
  | .hbm, ⟨8, _⟩ => ⟨S_, .i32⟩
  | .hbm, ⟨9, _⟩ => ⟨S16777216, .i32⟩
  | .hbm, ⟨10, _⟩ => ⟨S16777216, .i32⟩
  | .hbm, ⟨11, _⟩ => ⟨S16777216, .i32⟩
  | .hbm, ⟨12, _⟩ => ⟨S16777216x1, .i32⟩
  | .hbm, ⟨13, _⟩ => ⟨S16777216, .f32⟩
  | .hbm, ⟨14, _⟩ => ⟨S131072x128, .f32⟩
  | .hbm, ⟨15, _⟩ => ⟨S131072x128, .f32⟩
  | .hbm, ⟨16, _⟩ => ⟨S131072x128, .f32⟩
  | .hbm, ⟨17, _⟩ => ⟨S16777216, .f32⟩
  | .hbm, ⟨18, _⟩ => ⟨S_, .f32⟩
  | .hbm, ⟨19, _⟩ => ⟨S65536, .f32⟩
  | .hbm, ⟨20, _⟩ => ⟨S16777216x1, .i32⟩
  | .hbm, ⟨21, _⟩ => ⟨S65536, .f32⟩
  | .hbm, ⟨22, _⟩ => ⟨S512x128, .f32⟩
  | .hbm, ⟨23, _⟩ => ⟨S512x128, .f32⟩
  | .hbm, ⟨24, _⟩ => ⟨S512x128, .f32⟩
  | .hbm, ⟨25, _⟩ => ⟨S65536, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | _, _ => ⟨S65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S512x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S512x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  bcast_S_S16777216 : S_.BroadcastsInDim S16777216 (![] : Fin 0 → Fin S16777216.rank)
  bcast_S16777216_S16777216x1_0 : S16777216.BroadcastsInDim S16777216x1 (![0] : Fin 1 → Fin S16777216x1.rank)
  shapeCasts_S16777216_S131072x128 : S16777216.ShapeCasts S131072x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S131072x128_S16777216 : S131072x128.ShapeCasts S16777216
  bcast_S_S65536 : S_.BroadcastsInDim S65536 (![] : Fin 0 → Fin S65536.rank)
  shapeCasts_S65536_S512x128 : S65536.ShapeCasts S512x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  shapeCasts_S512x128_S65536 : S512x128.ShapeCasts S65536
  gather_S65536_S16777216x1_S16777216_n_0_n_n_0_1_1_wf : GatherDims.WF S65536 S16777216x1 S16777216 [] [0] [] [0] [] 1 ![1]
  scatter_S65536_S16777216x1_S16777216_n_0_0_1_wf : ScatterDims.WF S65536 S16777216x1 S16777216 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S131072x128.size a
  hwx0_0 : ∀ i : grid0.Coords, EltTy.bits .f32 = 32 ∨ (Rect.block (s := S131072x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S131072x128.size a
  hwx0_1 : ∀ i : grid0.Coords, EltTy.bits .f32 = 32 ∨ (Rect.block (s := S131072x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S131072x128.size a
  hwx0_2 : ∀ i : grid0.Coords, EltTy.bits .f32 = 32 ∨ (Rect.block (s := S131072x128) S8192x128.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S512x128.size a
  hwx1_0 : ∀ i : grid1.Coords, EltTy.bits .f32 = 32 ∨ (Rect.block (s := S512x128) S512x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S512x128.size a
  hwx1_1 : ∀ i : grid1.Coords, EltTy.bits .f32 = 32 ∨ (Rect.block (s := S512x128) S512x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S512x128.size a
  hwx1_2 : ∀ i : grid1.Coords, EltTy.bits .f32 = 32 ∨ (Rect.block (s := S512x128) S512x128.size (cc1_transform_2 i) (hinb1_2 i)).WholeWords (EltTy.packing .f32)

variable [Facts₀]

def gather_S65536_S16777216x1_S16777216_n_0_n_n_0_1_1 : GatherDims S65536 S16777216x1 S16777216 where
  offsetDims := []
  collapsedSliceDims := [0]
  operandBatchingDims := []
  startIndicesBatchingDims := []
  startIndexMap := [0]
  indexVectorDim := 1
  sliceSizes := ![1]
  wf := gather_S65536_S16777216x1_S16777216_n_0_n_n_0_1_1_wf
def scatter_S65536_S16777216x1_S16777216_n_0_0_1 : ScatterDims S65536 S16777216x1 S16777216 where
  updateWindowDims := []
  insertedWindowDims := [0]
  scatterDimsToOperandDims := [0]
  indexVectorDim := 1
  wf := scatter_S65536_S16777216x1_S16777216_n_0_0_1_wf

abbrev win0_0 : Pipeline.Window sig grid0 :=
  Pipeline.Window.ofSpec (Memref.whole main_v7) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S512x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v15) S512x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S512x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S65536 : Shape := ⟨1, ![65536]⟩
abbrev S16777216 : Shape := ⟨1, ![16777216]⟩
abbrev S_ : Shape := ⟨0, ![]⟩
abbrev S16777216x1 : Shape := ⟨2, ![16777216, 1]⟩

abbrev nBuf : Space → Nat
  | .hbm => 20
  | .vmem => 0
  | .smem => 0
  | _ => 0

abbrev bufTy : (tb : Table) → Fin (tcTables nBuf tb) → BufTy
  | .hbm, ⟨0, _⟩ => ⟨S65536, .f32⟩
  | .hbm, ⟨1, _⟩ => ⟨S16777216, .f32⟩
  | .hbm, ⟨2, _⟩ => ⟨S65536, .f32⟩
  | .hbm, ⟨3, _⟩ => ⟨S16777216, .i32⟩
  | .hbm, ⟨4, _⟩ => ⟨S16777216, .i32⟩
  | .hbm, ⟨5, _⟩ => ⟨S_, .i32⟩
  | .hbm, ⟨6, _⟩ => ⟨S16777216, .i32⟩
  | .hbm, ⟨7, _⟩ => ⟨S16777216, .i1⟩
  | .hbm, ⟨8, _⟩ => ⟨S_, .i32⟩
  | .hbm, ⟨9, _⟩ => ⟨S16777216, .i32⟩
  | .hbm, ⟨10, _⟩ => ⟨S16777216, .i32⟩
  | .hbm, ⟨11, _⟩ => ⟨S16777216, .i32⟩
  | .hbm, ⟨12, _⟩ => ⟨S16777216x1, .i32⟩
  | .hbm, ⟨13, _⟩ => ⟨S16777216, .f32⟩
  | .hbm, ⟨14, _⟩ => ⟨S16777216, .f32⟩
  | .hbm, ⟨15, _⟩ => ⟨S_, .f32⟩
  | .hbm, ⟨16, _⟩ => ⟨S65536, .f32⟩
  | .hbm, ⟨17, _⟩ => ⟨S16777216x1, .i32⟩
  | .hbm, ⟨18, _⟩ => ⟨S65536, .f32⟩
  | .hbm, ⟨19, _⟩ => ⟨S65536, .f32⟩
  | _, _ => ⟨S65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  bcast_S16777216_S16777216x1_0 : S16777216.BroadcastsInDim S16777216x1 (![0] : Fin 1 → Fin S16777216x1.rank)
  bcast_S_S65536 : S_.BroadcastsInDim S65536 (![] : Fin 0 → Fin S65536.rank)
  gather_S65536_S16777216x1_S16777216_n_0_n_n_0_1_1_wf : GatherDims.WF S65536 S16777216x1 S16777216 [] [0] [] [0] [] 1 ![1]
  scatter_S65536_S16777216x1_S16777216_n_0_0_1_wf : ScatterDims.WF S65536 S16777216x1 S16777216 [] [0] [0] 1

variable [Facts₀]

def gather_S65536_S16777216x1_S16777216_n_0_n_n_0_1_1 : GatherDims S65536 S16777216x1 S16777216 where
  offsetDims := []
  collapsedSliceDims := [0]
  operandBatchingDims := []
  startIndicesBatchingDims := []
  startIndexMap := [0]
  indexVectorDim := 1
  sliceSizes := ![1]
  wf := gather_S65536_S16777216x1_S16777216_n_0_n_n_0_1_1_wf
def scatter_S65536_S16777216x1_S16777216_n_0_0_1 : ScatterDims S65536 S16777216x1 S16777216 where
  updateWindowDims := []
  insertedWindowDims := [0]
  scatterDimsToOperandDims := [0]
  indexVectorDim := 1
  wf := scatter_S65536_S16777216x1_S16777216_n_0_0_1_wf

class Facts : Prop extends Facts₀ where

variable [Facts]
-- ==== Proof.MulRegion.lean ====
/-
  The first pallas_call (the edge products) read as a value. Its grid has 16 points; at point `t` each of its
  three windows is the block of rows `8192·t … 8192·t + 8191` (all 128 lanes) of its 131072×128 array, and the
  body stores the entrywise product of the two input blocks. So whatever the two input arrays hold when the call is
  entered, the output array ends holding their entrywise product: every point writes back its block of that one
  array-wide function, and the 16 blocks tile the array (row `r` lies in the block of point `r / 8192`).
-/
import proofs.«118216_j31525059952785_1_alg».proof.Proof.Gen.KernelIdeal.Frame
import Idealize.ShloMosaic.Lib.Pipeline.Value

set_option maxRecDepth 16384

noncomputable section

namespace Cert.KernelIdeal.Result

open Idealize.ShloMosaic Idealize.ShloMosaic.TcCoe Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))

theorem origin_eq_zero : (![0, 0] : Fin 2 → Nat) = fun _ => 0 := funext fun a => by fin_cases a <;> rfl

/-- The entrywise product of two 131072×128 arrays. -/
abbrev edgeProd (a b : S131072x128.Idx → Elt F .f32) : S131072x128.Idx → Elt F .f32 := fun i => FloatOps.mulf (a i) (b i)

/-- The body's stored value is the entrywise product of its two loaded blocks (the casts to the same shape are the
    identity). -/
theorem mulBody_eq (x0 x1 : Vec F S8192x128 .f32) : k0_pay1 x0 x1 = mulf x0 x1 := by
  unfold k0_pay1
  rw [shapeCast_self, shapeCast_self]

/-- At every grid point the three windows sit on the same block, block `(t, 0)`. -/
theorem mulIdx : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) ≤ 15
    ∧ win0_2.index t (1 : Fin 2) = 0 :=
  (by decide +kernel : ∀ t : Fin grid0.N, _)

/-- Every row block `q` of the output is some point's. -/
theorem mulIdx_onto : ∀ q : Fin 16, ∃ t : Fin cfg0.N, win0_2.index t = ![q.val, 0] :=
  (by decide +kernel : ∀ q : Fin 16, ∃ t : Fin grid0.N, win0_2.index t = ![q.val, 0])

/-- What point `t` writes back is its block of the entrywise product of the two input arrays as the call finds
    them. -/
theorem mulFlushed_eq (c : Dev nD) (t : Fin cfg0.N) :
    (dat0 V c).flushed 2 t = ((cfg0.win 2).blk t).view.read (Elt F) (edgeProd (V c main_v7) (V c main_v8)) := by
  show (cfg0.win 2).cut (grid0.coords t) ((dat0 V c).after 2 t) = _
  rw [after0_2]
  unfold out0_2
  rw [View.canon_unit_zero origin_eq_zero]
  simp only [View.ld_unit_zero (S := S8192x128) origin_eq_zero]
  rw [mulBody_eq]
  obtain ⟨e0, e1, e2, e3, e4, e5⟩ := mulIdx t
  funext j
  show FloatOps.mulf (V c main_v7 (((cfg0.win 0).blk t).view.emb j)) (V c main_v8 (((cfg0.win 1).blk t).view.emb j))
    = FloatOps.mulf (V c main_v7 (((cfg0.win 2).blk t).view.emb j)) (V c main_v8 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 8192 + 1 * (j 0).val = win0_2.index t (0 : Fin 2) * 8192 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 8192 + 1 * (j 0).val = win0_2.index t (0 : Fin 2) * 8192 + 1 * (j 0).val; omega
    | ⟨1, _⟩ => show win0_1.index t (1 : Fin 2) * 128 + 1 * (j 1).val = win0_2.index t (1 : Fin 2) * 128 + 1 * (j 1).val; omega
  rw [h0, h1]

/-- An index of the output array is in point `t`'s block iff each coordinate is in the block's range on its axis. -/
theorem mulMem_blk (t : Fin cfg0.N) (i : S131072x128.Idx) :
    i ∈ ((cfg0.win 2).blk t).view.set ↔ ∀ a : Fin 2, win0_2.index t a * S8192x128.size a ≤ (i a).val ∧ (i a).val < win0_2.index t a * S8192x128.size a + S8192x128.size a := by
  show i ∈ ((View.whole main_v9).slice (win0_2.rect t)).set ↔ _
  rw [View.set_slice_whole, Rect.mem_set_unit]
  exact Iff.rfl

/-- The 16 blocks tile the output array: row `r` is in the block of point `r / 8192`. -/
theorem mulCover (i : S131072x128.Idx) :
    ∃ t : Fin cfg0.N, (cfg0.win 2).flush t = true ∧ i ∈ ((cfg0.win 2).blk t).view.set := by
  have hi0 : (i 0).val < 131072 := (i 0).isLt
  have hi1 : (i 1).val < 128 := (i 1).isLt
  obtain ⟨t, ht⟩ := mulIdx_onto ⟨(i 0).val / 8192, by omega⟩
  have q0 : win0_2.index t (0 : Fin 2) = (i 0).val / 8192 := congrFun ht 0
  have q1 : win0_2.index t (1 : Fin 2) = 0 := congrFun ht 1
  refine ⟨t, flush0_2 t, ?_⟩
  rw [mulMem_blk]
  intro a
  match a with
  | ⟨0, _⟩ => show win0_2.index t (0 : Fin 2) * 8192 ≤ (i 0).val ∧ (i 0).val < win0_2.index t (0 : Fin 2) * 8192 + 8192; omega
  | ⟨1, _⟩ => show win0_2.index t (1 : Fin 2) * 128 ≤ (i 1).val ∧ (i 1).val < win0_2.index t (1 : Fin 2) * 128 + 128; omega

/-- After the first call its output array holds the entrywise product of its two input arrays as entered. -/
theorem mulFinal (c : Dev nD) : (dat0 V c).arrAt 2 cfg0.N = edgeProd (V c main_v7) (V c main_v8) :=
  (dat0 V c).arrAt_eq_of_cover 2 _ (fun t _ => mulFlushed_eq V c t) mulCover

end Cert.KernelIdeal.Result

end
-- ==== Proof.AddRegion.lean ====
/-
  The second pallas_call (the bias add) read as a value. Its grid has one point, at which each of its three windows
  is its whole 512×128 array, and the body stores the entrywise sum of the two input blocks. So whatever the two input
  arrays hold when the call is entered, the output array ends holding their entrywise sum.
-/
import proofs.«118216_j31525059952785_1_alg».proof.Proof.Gen.KernelIdeal.Frame
import proofs.«118216_j31525059952785_1_alg».proof.Proof.MulRegion
import Idealize.ShloMosaic.Lib.Pipeline.Value

set_option maxRecDepth 16384

noncomputable section

namespace Cert.KernelIdeal.Result

open Idealize.ShloMosaic Idealize.ShloMosaic.TcCoe Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))

/-- The entrywise sum of two 512×128 arrays. -/
abbrev biasSum (a b : S512x128.Idx → Elt F .f32) : S512x128.Idx → Elt F .f32 := fun i => FloatOps.addf (a i) (b i)

/-- The body's stored value is the entrywise sum of its two loaded blocks (the casts to the same shape are the
    identity). -/
theorem addBody_eq (x0 x1 : Vec F S512x128 .f32) : k1_pay1 x0 x1 = addf x0 x1 := by
  unfold k1_pay1
  rw [shapeCast_self, shapeCast_self]

/-- At the one grid point the three windows sit on block `(0, 0)`. -/
theorem addIdx : ∀ t : Fin cfg1.N, win1_0.index t (0 : Fin 2) = 0
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0 :=
  (by decide +kernel : ∀ t : Fin grid1.N, _)

/-- There is a grid point. -/
theorem addPoint : ∃ t : Fin cfg1.N, win1_2.index t = ![0, 0] :=
  (by decide +kernel : ∃ t : Fin grid1.N, win1_2.index t = ![0, 0])

/-- What the point writes back is (its block, the whole, of) the entrywise sum of the two input arrays as the call
    finds them. -/
theorem addFlushed_eq (c : Dev nD) (t : Fin cfg1.N) :
    (dat1 V c).flushed 2 t = ((cfg1.win 2).blk t).view.read (Elt F) (biasSum (V c main_v14) (V c main_v15)) := by
  show (cfg1.win 2).cut (grid1.coords t) ((dat1 V c).after 2 t) = _
  rw [after1_2]
  unfold out1_2
  rw [View.canon_unit_zero origin_eq_zero]
  simp only [View.ld_unit_zero (S := S512x128) origin_eq_zero]
  rw [addBody_eq]
  obtain ⟨e0, e1, e2, e3, e4, e5⟩ := addIdx t
  funext j
  show FloatOps.addf (V c main_v14 (((cfg1.win 0).blk t).view.emb j)) (V c main_v15 (((cfg1.win 1).blk t).view.emb j))
    = FloatOps.addf (V c main_v14 (((cfg1.win 2).blk t).view.emb j)) (V c main_v15 (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 512 + 1 * (j 0).val = win1_2.index t (0 : Fin 2) * 512 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb j = ((cfg1.win 2).blk t).view.emb j := by
    funext a; apply Fin.ext
    match a with
    | ⟨0, _⟩ => show win1_1.index t (0 : Fin 2) * 512 + 1 * (j 0).val = win1_2.index t (0 : Fin 2) * 512 + 1 * (j 0).val; omega
    | ⟨1, _⟩ => show win1_1.index t (1 : Fin 2) * 128 + 1 * (j 1).val = win1_2.index t (1 : Fin 2) * 128 + 1 * (j 1).val; omega
  rw [h0, h1]

/-- An index of the output array is in point `t`'s block iff each coordinate is in the block's range on its axis. -/
theorem addMem_blk (t : Fin cfg1.N) (i : S512x128.Idx) :
    i ∈ ((cfg1.win 2).blk t).view.set ↔ ∀ a : Fin 2, win1_2.index t a * S512x128.size a ≤ (i a).val ∧ (i a).val < win1_2.index t a * S512x128.size a + S512x128.size a := by
  show i ∈ ((View.whole main_v16).slice (win1_2.rect t)).set ↔ _
  rw [View.set_slice_whole, Rect.mem_set_unit]
  exact Iff.rfl

/-- The one block is the whole output array. -/
theorem addCover (i : S512x128.Idx) :
    ∃ t : Fin cfg1.N, (cfg1.win 2).flush t = true ∧ i ∈ ((cfg1.win 2).blk t).view.set := by
  have hi0 : (i 0).val < 512 := (i 0).isLt
  have hi1 : (i 1).val < 128 := (i 1).isLt
  obtain ⟨t, ht⟩ := addPoint
  have q0 : win1_2.index t (0 : Fin 2) = 0 := congrFun ht 0
  have q1 : win1_2.index t (1 : Fin 2) = 0 := congrFun ht 1
  refine ⟨t, flush1_2 t, ?_⟩
  rw [addMem_blk]
  intro a
  match a with
  | ⟨0, _⟩ => show win1_2.index t (0 : Fin 2) * 512 ≤ (i 0).val ∧ (i 0).val < win1_2.index t (0 : Fin 2) * 512 + 512; omega
  | ⟨1, _⟩ => show win1_2.index t (1 : Fin 2) * 128 ≤ (i 1).val ∧ (i 1).val < win1_2.index t (1 : Fin 2) * 128 + 128; omega

/-- After the second call its output array holds the entrywise sum of its two input arrays as entered. -/
theorem addFinal (c : Dev nD) : (dat1 V c).arrAt 2 cfg1.N = biasSum (V c main_v14) (V c main_v15) :=
  (dat1 V c).arrAt_eq_of_cover 2 _ (fun t _ => addFlushed_eq V c t) addCover

end Cert.KernelIdeal.Result

end
-- ==== Proof.KernelIdealValue.lean ====
/-
  The kernel program's result as one term of its arguments.

  @main is: the host gather `x[src]` (with negative indices wrapped by the array's length), the two factor arrays
  re-laid as 131072×128, the first pallas_call (their entrywise product), the product re-laid flat, the host
  scatter-add of it into zeros at `dst`, that sum and the bias re-laid as 512×128, the second pallas_call (their
  entrywise sum), and the sum re-laid flat. A re-laying keeps the row-major order, so re-laying two arrays, combining
  them entry by entry and re-laying the result back is combining the flat arrays entry by entry. Hence the result is
  `scatterAdd(0, dst, x[src] · w) + bias` with the product and the sum taken on the flat arrays.
-/
import proofs.«118216_j31525059952785_1_alg».proof.Proof.Gen.KernelIdeal.Frame
import proofs.«118216_j31525059952785_1_alg».proof.Proof.MulRegion
import proofs.«118216_j31525059952785_1_alg».proof.Proof.AddRegion
import Idealize.ShloMosaic.Lib.Pipeline.Value
import Idealize.ShloMosaic.Lib.StableHlo.Run

set_option maxRecDepth 16384

noncomputable section

namespace Cert.KernelIdeal.Result

open Idealize.ShloMosaic Idealize.ShloMosaic.TcCoe Idealize.SL.Sem
open Idealize.ShloMosaic.Pipeline (Dat Cfg Window)
open Cert.KernelIdeal Cert.KernelIdeal.Gen

variable {F : FTy → Type} [FloatOps F]

open Idealize.ShloMosaic.StableHlo

/-! ## Re-laying commutes with entrywise operations -/

/-- The product of two flat arrays re-laid as 131072×128, re-laid flat again, is the product of the flat arrays. -/
theorem relay_prod (a b : (⟨S16777216, .f32⟩ : BufTy).Contents (Elt F)) :
    shapeCast S16777216 (edgeProd (shapeCast S131072x128 a shapeCasts_S16777216_S131072x128) (shapeCast S131072x128 b shapeCasts_S16777216_S131072x128)) shapeCasts_S131072x128_S16777216
      = mulf a b := by
  have e : edgeProd (shapeCast S131072x128 a shapeCasts_S16777216_S131072x128) (shapeCast S131072x128 b shapeCasts_S16777216_S131072x128)
      = shapeCast S131072x128 (mulf a b) shapeCasts_S16777216_S131072x128 := rfl
  rw [e, shapeCast_shapeCast]

/-- The sum of two flat arrays re-laid as 512×128, re-laid flat again, is the sum of the flat arrays. -/
theorem relay_sum (a b : (⟨S65536, .f32⟩ : BufTy).Contents (Elt F)) :
    shapeCast S65536 (biasSum (shapeCast S512x128 a shapeCasts_S65536_S512x128) (shapeCast S512x128 b shapeCasts_S65536_S512x128)) shapeCasts_S512x128_S65536
      = addf a b := by
  have e : biasSum (shapeCast S512x128 a shapeCasts_S65536_S512x128) (shapeCast S512x128 b shapeCasts_S65536_S512x128)
      = shapeCast S512x128 (addf a b) shapeCasts_S65536_S512x128 := rfl
  rw [e, shapeCast_shapeCast]

/-! ## The terms -/

/-- `x[src]`: the gather at the indices with the negative ones wrapped by 65536. -/
def gathered (x : (⟨S65536, .f32⟩ : BufTy).Contents (Elt F)) (src : (⟨S16777216, .i32⟩ : BufTy).Contents (Elt F)) :
    (⟨S16777216, .f32⟩ : BufTy).Contents (Elt F) :=
  Host.gather gather_S65536_S16777216x1_S16777216_n_0_n_n_0_1_1 x
    (broadcastInDim S16777216x1 ![0] bcast_S16777216_S16777216x1_0
      (select (cmpi .slt src (broadcastInDim S16777216 ![] bcast_S_S16777216 (constantI S_ 32 0#32)))
        (addi src (broadcastInDim S16777216 ![] bcast_S_S16777216 (constantI S_ 32 65536#32))) src))

/-- The scatter-add of the edge values `u` into zeros at `dst`. -/
def segmentSum (dst : (⟨S16777216, .i32⟩ : BufTy).Contents (Elt F)) (u : (⟨S16777216, .f32⟩ : BufTy).Contents (Elt F)) :
    (⟨S65536, .f32⟩ : BufTy).Contents (Elt F) :=
  Host.scatterAdd scatter_S65536_S16777216x1_S16777216_n_0_0_1
    (broadcastInDim S65536 ![] bcast_S_S65536 (constant S_ .f32 0x00000000#32))
    (broadcastInDim S16777216x1 ![0] bcast_S16777216_S16777216x1_0 dst) u

variable (m : (ℓ : Loc nD τ sig) → Buf (Elt F) ℓ) (ρ : Dev nD → PrngReg)

/-! ## The buffers the first call is entered with -/

theorem entry_v7 (c : Dev nD) :
    V1 m ρ c main_v7 = shapeCast S131072x128 (gathered (m ((c : Thread nD τ).loc main_arg0)) (m ((c : Thread nD τ).loc main_arg3))) shapeCasts_S16777216_S131072x128 := by
  show StableHlo.after hostOps0 (W0 m ρ c) (Proc.devRef .tc main_v7) = _
  unfold hostOps0 gathered
  after_results <;> rfl

theorem entry_v8 (c : Dev nD) :
    V1 m ρ c main_v8 = shapeCast S131072x128 (m ((c : Thread nD τ).loc main_arg1)) shapeCasts_S16777216_S131072x128 := by
  show StableHlo.after hostOps0 (W0 m ρ c) (Proc.devRef .tc main_v8) = _
  unfold hostOps0
  after_results <;> rfl

/-! ## The buffers the first call leaves -/

theorem exit_v9 (c : Dev nD) :
    W2 m ρ c (Proc.devRef .tc main_v9) = edgeProd (V1 m ρ c main_v7) (V1 m ρ c main_v8) :=
  (W2_arr m ρ c 2).trans (mulFinal (V1 m ρ) c)

theorem exit_arg4 (c : Dev nD) : W2 m ρ c (Proc.devRef .tc main_arg4) = m ((c : Thread nD τ).loc main_arg4) := by
  rw [W2_of_ne m ρ c main_arg4 (by decide)]
  show StableHlo.after hostOps0 (W0 m ρ c) (Proc.devRef .tc main_arg4) = _
  unfold hostOps0
  after_results <;> rfl

theorem exit_arg2 (c : Dev nD) : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  unfold hostOps0
  after_results <;> rfl

/-! ## The buffers the second call is entered with -/

theorem entry_v14 (c : Dev nD) :
    V3 m ρ c main_v14 = shapeCast S512x128 (segmentSum (W2 m ρ c (Proc.devRef .tc main_arg4))
      (shapeCast S16777216 (W2 m ρ c (Proc.devRef .tc main_v9)) shapeCasts_S131072x128_S16777216)) shapeCasts_S65536_S512x128 := by
  show StableHlo.after hostOps1 (W2 m ρ c) (Proc.devRef .tc main_v14) = _
  unfold hostOps1 segmentSum
  after_results <;> rfl

theorem entry_v15 (c : Dev nD) :
    V3 m ρ c main_v15 = shapeCast S512x128 (W2 m ρ c (Proc.devRef .tc main_arg2)) shapeCasts_S65536_S512x128 := by
  show StableHlo.after hostOps1 (W2 m ρ c) (Proc.devRef .tc main_v15) = _
  unfold hostOps1
  after_results <;> rfl

/-! ## The result -/

theorem exit_v16 (c : Dev nD) :
    W4 m ρ c (Proc.devRef .tc main_v16) = biasSum (V3 m ρ c main_v14) (V3 m ρ c main_v15) :=
  (W4_arr m ρ c 2).trans (addFinal (V3 m ρ) c)

/-- The result buffer after @main's last operation: `segmentSum dst (x[src] · w) + bias` on the flat arrays. -/
theorem result_eq (c : Dev nD) :
    W5 m ρ c (Proc.devRef .tc main_v17)
      = addf (segmentSum (m ((c : Thread nD τ).loc main_arg4))
          (mulf (gathered (m ((c : Thread nD τ).loc main_arg0)) (m ((c : Thread nD τ).loc main_arg3))) (m ((c : Thread nD τ).loc main_arg1))))
          (m ((c : Thread nD τ).loc main_arg2)) := by
  have e : W5 m ρ c (Proc.devRef .tc main_v17) = shapeCast S65536 (W4 m ρ c (Proc.devRef .tc main_v16)) shapeCasts_S512x128_S65536 := by
    show StableHlo.after hostOps2 (W4 m ρ c) (Proc.devRef .tc main_v17) = _
    unfold hostOps2
    after_results <;> rfl
  rw [e, exit_v16, entry_v14, entry_v15, exit_arg4, exit_arg2, exit_v9, entry_v7, entry_v8, relay_prod, relay_sum]

end Cert.KernelIdeal.Result

end
-- ==== Proof.lean ====
/-
  The certificate of a message-passing layer: `out = segment_sum(x[src] · w, dst) + bias` over 16,777,216 edges and
  65,536 nodes. The kernel program takes the gather and the scatter-add on the host exactly as the reference does and
  computes the edge products and the bias add in two pallas_calls over re-laid (rows × 128) arrays; the reference
  computes both on the flat arrays. A re-laying keeps the row-major order, so both programs end with the same term
  of their arguments, and no law of the extended reals is needed beyond the operations being entrywise.

  The three frames: the kernel program's two are the generated frame certificates (two regions among three stretches
  of host operations); the reference's is its generated run with the result dropped. The idealization rewrote nothing,
  so `preserves` is trivial. For `algebraic` the kernel program's run is stated with the result buffer
  read at the last segment boundary (Proof/KernelIdealLaunch.lean), and that buffer's contents are opened region by
  region (Proof/MulRegion.lean, Proof/AddRegion.lean) and host stretch by host stretch (Proof/KernelIdealValue.lean).
-/
import proofs.«118216_j31525059952785_1_alg».proof.Defs
import proofs.«118216_j31525059952785_1_alg».proof.Proof.Gen.Kernel
import proofs.«118216_j31525059952785_1_alg».proof.Proof.Gen.Kernel.Frame
import proofs.«118216_j31525059952785_1_alg».proof.Proof.Gen.KernelIdeal
import proofs.«118216_j31525059952785_1_alg».proof.Proof.Gen.KernelIdeal.Frame
import proofs.«118216_j31525059952785_1_alg».proof.Proof.Gen.ReferenceIdeal
import proofs.«118216_j31525059952785_1_alg».proof.Proof.Gen.ReferenceIdeal.Run
import proofs.«118216_j31525059952785_1_alg».proof.Proof.Gen.Pre_finite_inputs
import proofs.«118216_j31525059952785_1_alg».proof.Proof.KernelIdealLaunch
import proofs.«118216_j31525059952785_1_alg».proof.Proof.KernelIdealValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with `segmentSum dst (x[src] · w) + bias` of arguments that agree. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.Result.result_eq (F := Ideal) m ρ c), (h c).2⟩)
    (Cert.KernelIdeal.Result.run_W5 (F := Ideal) m ρ), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
